-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x16 .f32) (main_arg3 : FVec F S144x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S16x128 : Shape := ⟨2, ![16, 128]⟩
abbrev S1x128 : Shape := ⟨2, ![1, 128]⟩
abbrev S4000x128 : Shape := ⟨2, ![4000, 128]⟩
abbrev S4000x16 : Shape := ⟨2, ![4000, 16]⟩
abbrev S50000 : Shape := ⟨1, ![50000]⟩
abbrev S50000x1 : Shape := ⟨2, ![50000, 1]⟩
abbrev S2000x128 : Shape := ⟨2, ![2000, 128]⟩
abbrev S2000x1 : Shape := ⟨2, ![2000, 1]⟩
abbrev S2000 : Shape := ⟨1, ![2000]⟩

abbrev nBuf : Space → Nat
  | .hbm => 47
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S128x128, .f32⟩
  | .hbm, ⟨23, _⟩ => ⟨S16x128, .f32⟩
  | .hbm, ⟨24, _⟩ => ⟨S1x128, .f32⟩
  | .hbm, ⟨25, _⟩ => ⟨S1x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S1x128, .f32⟩
  | .hbm, ⟨45, _⟩ => ⟨S1x128, .f32⟩
  | .hbm, ⟨46, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x16, .f32⟩
  | .local _ .vmem, ⟨3, _⟩ => ⟨S4000x16, .f32⟩
  | .local _ .vmem, ⟨4, _⟩ => ⟨S128x128, .f32⟩
  | .local _ .vmem, ⟨5, _⟩ => ⟨S16x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S1x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S144x128_S128x128_0_0 : S144x128.Slices ![0, 0] S128x128
  slices_S144x128_S16x128_128_0 : S144x128.Slices ![128, 0] S16x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x16_S4000x16_0_0 : ∀ a, (![0, 0] : Fin 2 → Nat) a + S4000x16.size a ≤ S4000x16.size a
  h_S4000x16 : 0 < S4000x16.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S2000 : S2000x128.Reduces [1] S2000
  shapeCasts_S2000_S2000x1 : S2000.ShapeCasts S2000x1
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x16_S16x128_S4000x128_1_0_0_1_n_n_wf : DotDims.WF S4000x16 S16x128 S4000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S800000x16.size a
  hwx0_1 : ∀ i : grid0.Coords, EltTy.bits .f32 = 32 ∨ (Rect.block (s := S800000x16) S4000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S800000x128.size a
  hwx0_7 : ∀ i : grid0.Coords, EltTy.bits .f32 = 32 ∨ (Rect.block (s := S800000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x144 : Shape := ⟨2, ![800000, 144]⟩
abbrev S1x128 : Shape := ⟨2, ![1, 128]⟩
abbrev S50000 : Shape := ⟨1, ![50000]⟩
abbrev S50000x1 : Shape := ⟨2, ![50000, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x144, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000, .f32⟩
  | .hbm, ⟨53, _⟩ => ⟨S50000x1, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x16_S800000x144_d1 : Shape.Concatenates [S800000x128, S800000x16] S800000x144 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x144_S144x128_S800000x128_1_0_0_1_n_n_wf : DotDims.WF S800000x144 S144x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Spec.lean ====
/-
  The mathematics of one message-passing layer, row by row, over the extended reals.

  A message is a two-layer perceptron of an edge's gathered node features (128 of them) and its own 16
  features: the first layer's weight matrix is split in the rows that multiply the node features and the rows
  that multiply the edge features, so its pre-activation is the sum of two contractions plus a bias; the
  activation is the maximum with zero; the second layer is one more contraction plus a bias.

  A node's new features are the layer normalisation, along the 128 features, of its old features plus the sum of
  its incoming messages scaled by a per-node factor: mean, centred row, mean of squares, reciprocal square root
  of that plus a small constant, then an affine map feature by feature.

  Two laws join the two programs. A contraction over the 144 joined features is the sum of the contraction over
  the first 128 and the contraction over the last 16 (a finite sum split in two: true of every commutative
  monoid, so also at the infinities). Dividing by a nonzero count is multiplying by the quotient of one by that
  count; the count is one plus a sum of ones, so it is at least one.
-/
import Idealize.ShloMosaic.PureOps.Ideal
import Mathlib.Algebra.BigOperators.Fin
import Mathlib.Algebra.Order.BigOperators.Group.Finset

noncomputable section

namespace Cert.Spec

open Idealize.ShloMosaic

/-- The float constants of both programs, as the words they are printed with: 0, 1, 128 and the small constant
    added to the variance. -/
abbrev zeroF : EReal := Ideal.ofBits .f32 0x00000000#32
abbrev oneF : EReal := Ideal.ofBits .f32 0x3F800000#32
abbrev widthF : EReal := Ideal.ofBits .f32 0x43000000#32
abbrev epsF : EReal := Ideal.ofBits .f32 0x3727C5AC#32

/-- Hidden unit `k` of an edge's message: the node-feature contraction plus the edge-feature contraction plus the
    bias, cut off below at zero. -/
def hiddenAt (hrow : Fin 128 → EReal) (erow : Fin 16 → EReal) (w1a : Fin 128 → Fin 128 → EReal)
    (w1b : Fin 16 → Fin 128 → EReal) (b1 : Fin 128 → EReal) (k : Fin 128) : EReal :=
  max ((∑ a : Fin 128, hrow a * w1a a k) + (∑ a : Fin 16, erow a * w1b a k) + b1 k) zeroF

/-- Feature `j` of an edge's message: the hidden layer contracted with the second weight matrix, plus the bias. -/
def msgAt (hrow : Fin 128 → EReal) (erow : Fin 16 → EReal) (w1a : Fin 128 → Fin 128 → EReal)
    (w1b : Fin 16 → Fin 128 → EReal) (b1 : Fin 128 → EReal) (w2 : Fin 128 → Fin 128 → EReal) (b2 : Fin 128 → EReal)
    (j : Fin 128) : EReal :=
  (∑ k : Fin 128, hiddenAt hrow erow w1a w1b b1 k * w2 k j) + b2 j

/-- Row `a` of the joined 144-row weight matrix that multiplies node feature `a`. -/
def top (a : Fin 128) : Fin 144 := ⟨a.val, by have := a.isLt; omega⟩
/-- Row of the joined weight matrix that multiplies edge feature `a`. -/
def bot (a : Fin 16) : Fin 144 := ⟨128 + a.val, by have := a.isLt; omega⟩

/-- A sum over the 144 joined features is the sum over the 128 node features plus the sum over the 16 edge
    features. -/
theorem sum_joined (f : Fin 144 → EReal) : ∑ a : Fin 144, f a = (∑ a : Fin 128, f (top a)) + ∑ a : Fin 16, f (bot a) := by
  have h := Fin.sum_univ_add (M := EReal) (a := 128) (b := 16) (fun i => f i)
  refine h.trans ?_
  rfl

/-- Feature `j` of the normalised row `x`: centred by the row's mean, scaled by the reciprocal square root of the mean
    square of the centred row plus the small constant, then the affine map. -/
def lnAt (x : Fin 128 → EReal) (g b : Fin 128 → EReal) (j : Fin 128) : EReal :=
  (x j - Ideal.div (∑ a : Fin 128, x a) widthF)
      * Ideal.rsqrt (Ideal.div (∑ a : Fin 128, (x a - Ideal.div (∑ a' : Fin 128, x a') widthF) * (x a - Ideal.div (∑ a' : Fin 128, x a') widthF)) widthF + epsF)
      * g j + b j

/-- Dividing by a nonzero `c` is multiplying by the quotient of one by `c` (both are the product with the inverse of
    `c`; at `c = 0` the two differ, the quotient being defined by the numerator's sign there). -/
theorem div_eq_mul_one_div (a c : EReal) (hc : c ≠ 0) : Ideal.div a c = a * Ideal.div 1 c := by
  unfold Ideal.div
  rw [if_neg hc, if_neg hc, one_mul]

/-- One plus a sum of ones over any finite set of edges is not zero: the sum is nonnegative. -/
theorem one_add_count_ne_zero {ι : Type} (s : Finset ι) : (1 : EReal) + (0 + ∑ _j ∈ s, (1 : EReal)) ≠ 0 := by
  have h0 : (0 : EReal) ≤ 0 + ∑ _j ∈ s, (1 : EReal) := by
    rw [zero_add]; exact Finset.sum_nonneg fun _ _ => zero_le_one
  have h1 : (0 : EReal) < 1 + (0 + ∑ _j ∈ s, (1 : EReal)) :=
    lt_of_lt_of_le zero_lt_one (le_add_of_nonneg_right h0)
  exact ne_of_gt h1

end Cert.Spec

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Glue.lean ====
/-
  What each kernel region finds in the arrays it reads, as terms of the program's arguments: the host operations before
  the first region slice the edge list into its source and destination columns, gather the source rows, cut the joined
  weight matrix in its two row ranges and lay the bias vectors out as rows; those between the regions scatter-add the
  messages and a vector of ones into the destination nodes and form one over one plus the count. Then those arrays read at
  an index, and two congruences: equal rows give equal messages and equal normalised rows.
-/
import proofs.«107144_j5583457485518_1_alg».proof.Proof.KernelRun
import proofs.«107144_j5583457485518_1_alg».proof.Proof.Spec
import proofs.«107144_j5583457485518_1_alg».proof.Proof.LibKeepdims
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## What each region finds in the arrays it reads: the host operations before it, as terms of the arguments -/

/-- The source column of the edge list, and the destination column. -/
abbrev srcOf (x1 : IVec S2x800000 32) : IVec S800000 32 :=
  shapeCast _ (extractStridedSlice S1x800000 ![0, 0] x1 slices_S2x800000_S1x800000_0_0) shapeCasts_S1x800000_S800000
abbrev dstOf (x1 : IVec S2x800000 32) : IVec S800000 32 :=
  shapeCast _ (extractStridedSlice S1x800000 ![1, 0] x1 slices_S2x800000_S1x800000_1_0) shapeCasts_S1x800000_S800000

theorem e_v10 (c : Dev nD) : (V1 m ρ c main_v10 : Vec Ideal S800000x128 .f32)
    = Host.gather gather_S50000x128_S800000x1_S800000x128_1_0_n_n_0_1_1128 (m ((c.tc : Thread nD τ).loc main_arg0))
        (broadcastInDim S800000x1 ![0] bcast_S800000_S800000x1_0
          (select (cmpi .slt (srcOf (m ((c.tc : Thread nD τ).loc main_arg1))) (broadcastInDim S800000 ![] bcast_S_S800000 (constantI S_ 32 0#32)))
            (addi (srcOf (m ((c.tc : Thread nD τ).loc main_arg1))) (broadcastInDim S800000 ![] bcast_S_S800000 (constantI S_ 32 50000#32)))
            (srcOf (m ((c.tc : Thread nD τ).loc main_arg1))))) := by
  show StableHlo.after hostOps0 (W0 m ρ c) (Proc.devRef .tc main_v10) = _
  first | (after_results <;> rfl) | fail "v10"

theorem e_v11 (c : Dev nD) : (V1 m ρ c main_v11 : Vec Ideal S128x128 .f32)
    = extractStridedSlice S128x128 ![0, 0] (m ((c.tc : Thread nD τ).loc main_arg3)) slices_S144x128_S128x128_0_0 := by
  show StableHlo.after hostOps0 (W0 m ρ c) (Proc.devRef .tc main_v11) = _
  first | (after_results <;> rfl) | fail "v11"
theorem e_v12 (c : Dev nD) : (V1 m ρ c main_v12 : Vec Ideal S16x128 .f32)
    = extractStridedSlice S16x128 ![128, 0] (m ((c.tc : Thread nD τ).loc main_arg3)) slices_S144x128_S16x128_128_0 := by
  show StableHlo.after hostOps0 (W0 m ρ c) (Proc.devRef .tc main_v12) = _
  first | (after_results <;> rfl) | fail "v12"
theorem e_arg2 (c : Dev nD) : (V1 m ρ c main_arg2 : Vec Ideal S800000x16 .f32) = m ((c.tc : Thread nD τ).loc main_arg2) := by
  show StableHlo.after hostOps0 (W0 m ρ c) (Proc.devRef .tc main_arg2) = _
  first | (after_results <;> rfl) | fail "arg2"
theorem e_arg5 (c : Dev nD) : (V1 m ρ c main_arg5 : Vec Ideal S128x128 .f32) = m ((c.tc : Thread nD τ).loc main_arg5) := by
  show StableHlo.after hostOps0 (W0 m ρ c) (Proc.devRef .tc main_arg5) = _
  first | (after_results <;> rfl) | fail "arg5"
theorem e_v13 (c : Dev nD) : (V1 m ρ c main_v13 : Vec Ideal S1x128 .f32)
    = shapeCast _ (m ((c.tc : Thread nD τ).loc main_arg4)) shapeCasts_S128_S1x128 := by
  show StableHlo.after hostOps0 (W0 m ρ c) (Proc.devRef .tc main_v13) = _
  first | (after_results <;> rfl) | fail "v13"
theorem e_v14 (c : Dev nD) : (V1 m ρ c main_v14 : Vec Ideal S1x128 .f32)
    = shapeCast _ (m ((c.tc : Thread nD τ).loc main_arg6)) shapeCasts_S128_S1x128 := by
  show StableHlo.after hostOps0 (W0 m ρ c) (Proc.devRef .tc main_v14) = _
  first | (after_results <;> rfl) | fail "v14"

/-- The destination column as the second stretch finds it: written before the first region, untouched by it. -/
theorem e_v3 (c : Dev nD) : (W2 m ρ c (Proc.devRef .tc main_v3) : IVec S800000 32) = dstOf (m ((c.tc : Thread nD τ).loc main_arg1)) := by
  rw [W2_of_ne m ρ c main_v3 (by decide)]
  show StableHlo.after hostOps0 (W0 m ρ c) (Proc.devRef .tc main_v3) = _
  first | (after_results <;> rfl) | fail "v3"

theorem e_v18 (c : Dev nD) : (V3 m ρ c main_v18 : Vec Ideal S50000x128 .f32)
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (W2 m ρ c (Proc.devRef .tc main_v3) : IVec S800000 32))
        (W2 m ρ c (Proc.devRef .tc main_v15) : Vec Ideal S800000x128 .f32) := by
  show StableHlo.after hostOps1 (W2 m ρ c) (Proc.devRef .tc main_v18) = _
  first | (after_results <;> rfl) | fail "v18"

theorem e_v27 (c : Dev nD) : (V3 m ρ c main_v27 : Vec Ideal S50000x1 .f32)
    = shapeCast _ (Host.divf (F := Ideal) (broadcastInDim S50000 ![] bcast_S_S50000 (constant (F := Ideal) S_ .f32 0x3F800000#32))
        (addf (broadcastInDim S50000 ![] bcast_S_S50000 (constant (F := Ideal) S_ .f32 0x3F800000#32))
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (W2 m ρ c (Proc.devRef .tc main_v3) : IVec S800000 32))
            (broadcastInDim S800000 ![] bcast_S_S800000 (constant (F := Ideal) S_ .f32 0x3F800000#32))))) shapeCasts_S50000_S50000x1 := by
  show StableHlo.after hostOps1 (W2 m ρ c) (Proc.devRef .tc main_v27) = _
  first | (after_results <;> rfl) | fail "v27"

theorem e_v28 (c : Dev nD) : (V3 m ρ c main_v28 : Vec Ideal S1x128 .f32)
    = shapeCast _ (m ((c.tc : Thread nD τ).loc main_arg7)) shapeCasts_S128_S1x128 := by
  show StableHlo.after hostOps1 (W2 m ρ c) (Proc.devRef .tc main_v28) = _
  after_results
  rw [W2_of_ne m ρ c main_arg7 (by decide)]
  show shapeCast _ (StableHlo.after hostOps0 (W0 m ρ c) (Proc.devRef .tc main_arg7)) _ = _
  first | (after_results <;> rfl) | fail "v28"

theorem e_arg0' (c : Dev nD) : (V3 m ρ c main_arg0 : Vec Ideal S50000x128 .f32) = m ((c.tc : Thread nD τ).loc main_arg0) :=
  ((W4_arr m ρ c 0).trans (((dat1 (V3 m ρ) c).arrAt_in 0 rfl _).trans (A_eq1 (V3 m ρ) c 0))).symm.trans (W4_main_arg0 m ρ c)

theorem e_v29 (c : Dev nD) : (V3 m ρ c main_v29 : Vec Ideal S1x128 .f32)
    = shapeCast _ (m ((c.tc : Thread nD τ).loc main_arg8)) shapeCasts_S128_S1x128 := by
  show StableHlo.after hostOps1 (W2 m ρ c) (Proc.devRef .tc main_v29) = _
  after_results
  rw [W2_of_ne m ρ c main_arg8 (by decide)]
  show shapeCast _ (StableHlo.after hostOps0 (W0 m ρ c) (Proc.devRef .tc main_arg8)) _ = _
  after_results <;> rfl

/-! ## Those arrays read at an index -/

/-- The first 128 rows of the joined weight matrix. -/
theorem top_at (x3 : Vec Ideal S144x128 .f32) (a k : Fin 128) :
    extractStridedSlice S128x128 ![0, 0] x3 slices_S144x128_S128x128_0_0 (ix2 a k) = x3 (ix2 (Spec.top a) k) :=
  extractStridedSlice_apply ![0, 0] x3 slices_S144x128_S128x128_0_0 (ix2 a k) (ix2 (Spec.top a) k) (fun ax => match ax with
    | ⟨0, _⟩ => by show a.val = 0 + a.val; omega
    | ⟨1, _⟩ => by show k.val = 0 + k.val; omega)

/-- Its last 16 rows. -/
theorem bot_at (x3 : Vec Ideal S144x128 .f32) (a : Fin 16) (k : Fin 128) :
    extractStridedSlice S16x128 ![128, 0] x3 slices_S144x128_S16x128_128_0 (ix2 a k) = x3 (ix2 (Spec.bot a) k) :=
  extractStridedSlice_apply ![128, 0] x3 slices_S144x128_S16x128_128_0 (ix2 a k) (ix2 (Spec.bot a) k) (fun ax => match ax with
    | ⟨0, _⟩ => by show 128 + a.val = 128 + a.val; rfl
    | ⟨1, _⟩ => by show k.val = 0 + k.val; omega)

/-- A vector laid out as one row. -/
theorem row_at (x : Vec Ideal S128 .f32) (k : Fin 128) :
    shapeCast S1x128 x shapeCasts_S128_S1x128 (ix2 (0 : Fin 1) k) = x (ix1 k) :=
  shapeCast_apply x shapeCasts_S128_S1x128 _ _ (by
    rw [Shape.rowMajor_val_two, Shape.rowMajor_val_one]
    show k.val = 0 * 128 + k.val
    omega)

/-- The word of the float one is the number one. -/
theorem oneF_eq : Spec.oneF = 1 := by
  simp [Ideal.ofBits, Ideal.ieee]
  norm_cast
  norm_num

/-! ## Equal rows give equal messages and equal normalised rows -/

theorem msgAt_congr {h h' : Fin 128 → EReal} {e e' : Fin 16 → EReal} {w1a w1a' : Fin 128 → Fin 128 → EReal}
    {w1b w1b' : Fin 16 → Fin 128 → EReal} {b1 b1' : Fin 128 → EReal} {w2 w2' : Fin 128 → Fin 128 → EReal} {b2 b2' : Fin 128 → EReal}
    (e1 : ∀ a, h a = h' a) (e2 : ∀ a, e a = e' a) (e3 : ∀ a k, w1a a k = w1a' a k) (e4 : ∀ a k, w1b a k = w1b' a k)
    (e5 : ∀ k, b1 k = b1' k) (e6 : ∀ k j, w2 k j = w2' k j) (e7 : ∀ j, b2 j = b2' j) (j : Fin 128) :
    Spec.msgAt h e w1a w1b b1 w2 b2 j = Spec.msgAt h' e' w1a' w1b' b1' w2' b2' j := by
  obtain rfl : h = h' := funext e1
  obtain rfl : e = e' := funext e2
  obtain rfl : w1a = w1a' := funext fun a => funext (e3 a)
  obtain rfl : w1b = w1b' := funext fun a => funext (e4 a)
  obtain rfl : b1 = b1' := funext e5
  obtain rfl : w2 = w2' := funext fun a => funext (e6 a)
  obtain rfl : b2 = b2' := funext e7
  rfl

theorem lnAt_congr {x x' g g' b b' : Fin 128 → EReal} (e1 : ∀ a, x a = x' a) (e2 : ∀ a, g a = g' a) (e3 : ∀ a, b a = b' a)
    (j : Fin 128) : Spec.lnAt x g b j = Spec.lnAt x' g' b' j := by
  obtain rfl : x = x' := funext e1
  obtain rfl : g = g' := funext e2
  obtain rfl : b = b' := funext e3
  rfl

end Cert.Bridge

end
-- ==== Proof.MessagePayload.lean ====
/-
  The message kernel's arithmetic on one block, read at an index: row `p`, feature `q` of what the body stores is the
  two-layer perceptron of row `p` of the node-feature block and row `p` of the edge-feature block. The three matrix
  products into a zero accumulator are plain sums over the contracted axis; a change of float format is the identity;
  the bias rows are broadcast along the rows.
-/
import proofs.«107144_j5583457485518_1_alg».proof.Proof.Gen.KernelIdeal.Skeleton
import proofs.«107144_j5583457485518_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Messages

open Idealize.ShloMosaic Idealize.ShloMosaic.TcCoe Idealize.ShloMosaic.ValueIdx Idealize.SL.Sem
open Cert.KernelIdeal Cert.KernelIdeal.Gen

/-! ## The operand indices of the two contractions

For each of the two dimension records (contract the left operand's axis 1 with the right operand's axis 0, no batch
axis), the left operand's index at output index `i` and contraction position `q` is (row of `i`, `q`) and the right
operand's is (`q`, column of `i`). -/

theorem lhs_nn_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_nn_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_nn_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_nn_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem lhs_en_0 (i : S4000x128.Idx) (q : dot_S4000x16_S16x128_S4000x128_1_0_0_1_n_n.contr.Idx) :
    (dot_S4000x16_S16x128_S4000x128_1_0_0_1_n_n.lhsIdx i q 0).val = (i 0).val := by
  unfold DotDims.lhsIdx
  rw [dif_neg (show ¬(0 : Fin S4000x16.rank) ∈ dot_S4000x16_S16x128_S4000x128_1_0_0_1_n_n.lhsBatch by decide), dif_pos (show (0 : Fin S4000x16.rank) ∈ dot_S4000x16_S16x128_S4000x128_1_0_0_1_n_n.lhsNonContracting by decide)]
  rfl
theorem lhs_en_1 (i : S4000x128.Idx) (q : dot_S4000x16_S16x128_S4000x128_1_0_0_1_n_n.contr.Idx) :
    (dot_S4000x16_S16x128_S4000x128_1_0_0_1_n_n.lhsIdx i q 1).val = (q ⟨0, by decide⟩).val :=
  dot_S4000x16_S16x128_S4000x128_1_0_0_1_n_n.lhsIdx_val_of_single rfl i q
theorem rhs_en_0 (i : S4000x128.Idx) (q : dot_S4000x16_S16x128_S4000x128_1_0_0_1_n_n.contr.Idx) :
    (dot_S4000x16_S16x128_S4000x128_1_0_0_1_n_n.rhsIdx i q 0).val = (q ⟨0, by decide⟩).val :=
  dot_S4000x16_S16x128_S4000x128_1_0_0_1_n_n.rhsIdx_val_of_single rfl i q
theorem rhs_en_1 (i : S4000x128.Idx) (q : dot_S4000x16_S16x128_S4000x128_1_0_0_1_n_n.contr.Idx) :
    (dot_S4000x16_S16x128_S4000x128_1_0_0_1_n_n.rhsIdx i q 1).val = (i 1).val := by
  unfold DotDims.rhsIdx
  rw [dif_neg (show ¬(1 : Fin S16x128.rank) ∈ dot_S4000x16_S16x128_S4000x128_1_0_0_1_n_n.rhsBatch by decide), dif_pos (show (1 : Fin S16x128.rank) ∈ dot_S4000x16_S16x128_S4000x128_1_0_0_1_n_n.rhsNonContracting by decide)]
  rfl

/-! ## A product into the zero accumulator, read at an index -/

/-- Row `p`, column `q` of a [4000,128] × [128,128] product into the zero accumulator is the sum over the 128 contracted
    positions of the left operand's row `p` times the right operand's column `q`. -/
theorem matmul_nn_apply (y : FVec Ideal S4000x128 .bf16) (w : FVec Ideal S128x128 .bf16) (p : Fin 4000) (q : Fin 128) :
    matmul dot_S4000x128_S128x128_S4000x128_1_0_0_1_n_n none y w (constant (F := Ideal) S4000x128 .f32 0x00000000#32) (ix2 p q)
      = ∑ k : Fin 128, y (ix2 p k) * w (ix2 k q) := by
  refine (Ideal.matmul_constant_zero_apply dot_S4000x128_S128x128_S4000x128_1_0_0_1_n_n none y w (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_nn_0 _ _
    | ⟨1, _⟩ => exact (lhs_nn_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_nn_0 _ _).trans hk
    | ⟨1, _⟩ => exact rhs_nn_1 _ _)
  rw [el, er]

/-- The same for a [4000,16] × [16,128] product: a sum over 16 contracted positions. -/
theorem matmul_en_apply (y : FVec Ideal S4000x16 .bf16) (w : FVec Ideal S16x128 .bf16) (p : Fin 4000) (q : Fin 128) :
    matmul dot_S4000x16_S16x128_S4000x128_1_0_0_1_n_n none y w (constant (F := Ideal) S4000x128 .f32 0x00000000#32) (ix2 p q)
      = ∑ k : Fin 16, y (ix2 p k) * w (ix2 k q) := by
  refine (Ideal.matmul_constant_zero_apply dot_S4000x16_S16x128_S4000x128_1_0_0_1_n_n none y w (ix2 p q)).trans ?_
  rw [← Equiv.sum_comp (contrEquiv1 dot_S4000x16_S16x128_S4000x128_1_0_0_1_n_n 16 rfl rfl).symm]
  refine Finset.sum_congr rfl fun k _ => ?_
  have hk := contrEquiv1_symm_val dot_S4000x16_S16x128_S4000x128_1_0_0_1_n_n 16 rfl rfl k
  have el : dot_S4000x16_S16x128_S4000x128_1_0_0_1_n_n.lhsIdx (ix2 p q) ((contrEquiv1 dot_S4000x16_S16x128_S4000x128_1_0_0_1_n_n 16 rfl rfl).symm k) = ix2 p k := funext fun a => Fin.ext (by
    match a with
    | ⟨0, _⟩ => exact lhs_en_0 _ _
    | ⟨1, _⟩ => exact (lhs_en_1 _ _).trans hk)
  have er : dot_S4000x16_S16x128_S4000x128_1_0_0_1_n_n.rhsIdx (ix2 p q) ((contrEquiv1 dot_S4000x16_S16x128_S4000x128_1_0_0_1_n_n 16 rfl rfl).symm k) = ix2 k q := funext fun a => Fin.ext (by
    match a with
    | ⟨0, _⟩ => exact (rhs_en_0 _ _).trans hk
    | ⟨1, _⟩ => exact rhs_en_1 _ _)
  rw [el, er]

/-- A [1,128] row broadcast along 4000 rows reads, at row `p` and column `q`, the row's entry `q`. -/
theorem bias_row_apply (v : FVec Ideal S1x128 .f32) (p : Fin 4000) (q : Fin 128) :
    broadcastTo S4000x128 v broadcasts_S1x128_S4000x128 (ix2 p q) = v (ix2 0 q) :=
  broadcastTo_1b_ab_apply v broadcasts_S1x128_S4000x128 p q

/-- The body's stored value at row `p`, feature `q` of the block. -/
theorem payload0 (x0 : Vec Ideal S4000x128 .f32) (x1 : Vec Ideal S4000x16 .f32) (x2 : Vec Ideal S128x128 .f32)
    (x3 : Vec Ideal S16x128 .f32) (x4 : Vec Ideal S128x128 .f32) (x5 x6 : Vec Ideal S1x128 .f32) (p : Fin 4000) (q : Fin 128) :
    k0_pay1 (F := Ideal) x0 x1 x2 x3 x4 x5 x6 (ix2 p q)
      = Spec.msgAt (fun a => x0 (ix2 p a)) (fun a => x1 (ix2 p a)) (fun a k => x2 (ix2 a k)) (fun a k => x3 (ix2 a k))
          (fun k => x5 (ix2 0 k)) (fun k j => x4 (ix2 k j)) (fun j => x6 (ix2 0 j)) q := by
  unfold k0_pay1
  simp only [shapeCast_self]
  rw [addf_apply, matmul_nn_apply, bias_row_apply]
  unfold Spec.msgAt
  refine congrArg (· + x6 (ix2 0 q)) (Finset.sum_congr rfl fun k _ => ?_)
  refine congrArg (· * x4 (ix2 k q)) ?_
  rw [truncf_apply, maximumf_apply, addf_apply, addf_apply, matmul_nn_apply, matmul_en_apply, bias_row_apply]
  rfl

end Cert.KernelIdeal.Messages

end
-- ==== Proof.MessageRegion.lean ====
/-
  What the message kernel leaves in its output array: row by row, the two-layer perceptron of the row's gathered
  node features and edge features.
-/
import proofs.«107144_j5583457485518_1_alg».proof.Proof.Gen.KernelIdeal.Frame
import proofs.«107144_j5583457485518_1_alg».proof.Proof.Spec
import proofs.«107144_j5583457485518_1_alg».proof.Proof.MessagePayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Messages

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The arrays the message kernel reads, as the region finds them, each at its literal shape. -/
abbrev srcRows (c : Dev nD) : Vec Ideal S800000x128 .f32 := V c main_v10
abbrev attrRows (c : Dev nD) : Vec Ideal S800000x16 .f32 := V c main_arg2
abbrev w1Top (c : Dev nD) : Vec Ideal S128x128 .f32 := V c main_v11
abbrev w1Bot (c : Dev nD) : Vec Ideal S16x128 .f32 := V c main_v12
abbrev w2Arr (c : Dev nD) : Vec Ideal S128x128 .f32 := V c main_arg5
abbrev b1Row (c : Dev nD) : Vec Ideal S1x128 .f32 := V c main_v13
abbrev b2Row (c : Dev nD) : Vec Ideal S1x128 .f32 := V c main_v14

/-- The message array as one function of those arrays. -/
def messages (c : Dev nD) : Vec Ideal S800000x128 .f32 := fun i =>
  Spec.msgAt (fun a => srcRows V c (ix2 (i 0) a)) (fun a => attrRows V c (ix2 (i 0) a))
    (fun a k => w1Top V c (ix2 a k)) (fun a k => w1Bot V c (ix2 a k)) (fun k => b1Row V c (ix2 0 k))
    (fun k j => w2Arr V c (ix2 k j)) (fun j => b2Row V c (ix2 0 j)) (i 1)

/-- The two zero offsets of a whole-block access are the constant zero. -/
theorem zeroOffsets : (![0, 0] : Fin 2 → Nat) = fun _ => 0 :=
  funext fun a => match a with | ⟨0, _⟩ => rfl | ⟨1, _⟩ => rfl

/-- Where each window's block sits at grid point `t`, decided once over the 200 points: the two row-block inputs and
    the output are at block row `t`, block column 0; the weight and bias windows are their whole arrays. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block, read where it sits in its array

An element of a block sits, on each axis, at the block's index times the block's size plus its own coordinate. -/

/-- Row `p` of the node-feature block at point `t` is row `4000 t + p` of the node-feature array. -/
theorem srcBlock_apply (c : Dev nD) (t : Fin cfg0.N) (p : Fin 4000) (a : Fin 128) (r : Fin 800000)
    (hr : r.val = t.val * 4000 + p.val) :
    (iblk0 V c 0 t : Vec Ideal S4000x128 .f32) (ix2 p a) = srcRows V c (ix2 r a) := by
  obtain ⟨e0, e1, -⟩ := blockIndex t
  unfold iblk0
  rw [View.read_apply]
  show V c main_v10 _ = V c main_v10 _
  congr 1
  funext ax
  apply Fin.ext
  match ax with
  | ⟨0, _⟩ => show win0_0.index t (0 : Fin 2) * 4000 + 1 * p.val = r.val; omega
  | ⟨1, _⟩ => show win0_0.index t (1 : Fin 2) * 128 + 1 * a.val = a.val; omega

/-- Row `p` of the edge-feature block at point `t` is row `4000 t + p` of the edge-feature array. -/
theorem attrBlock_apply (c : Dev nD) (t : Fin cfg0.N) (p : Fin 4000) (a : Fin 16) (r : Fin 800000)
    (hr : r.val = t.val * 4000 + p.val) :
    (iblk0 V c 1 t : Vec Ideal S4000x16 .f32) (ix2 p a) = attrRows V c (ix2 r a) := by
  obtain ⟨-, -, e0, e1, -⟩ := blockIndex t
  unfold iblk0
  rw [View.read_apply]
  show V c main_arg2 _ = V c main_arg2 _
  congr 1
  funext ax
  apply Fin.ext
  match ax with
  | ⟨0, _⟩ => show win0_1.index t (0 : Fin 2) * 4000 + 1 * p.val = r.val; omega
  | ⟨1, _⟩ => show win0_1.index t (1 : Fin 2) * 16 + 1 * a.val = a.val; omega

/-- The first layer's node-feature weights: the block is the whole array. -/
theorem w1TopBlock_apply (c : Dev nD) (t : Fin cfg0.N) (a k : Fin 128) :
    (iblk0 V c 2 t : Vec Ideal S128x128 .f32) (ix2 a k) = w1Top V c (ix2 a k) := by
  obtain ⟨-, -, -, -, e0, e1, -⟩ := blockIndex t
  unfold iblk0
  rw [View.read_apply]
  show V c main_v11 _ = V c main_v11 _
  congr 1
  funext ax
  apply Fin.ext
  match ax with
  | ⟨0, _⟩ => show win0_2.index t (0 : Fin 2) * 128 + 1 * a.val = a.val; omega
  | ⟨1, _⟩ => show win0_2.index t (1 : Fin 2) * 128 + 1 * k.val = k.val; omega

/-- The first layer's edge-feature weights: the block is the whole array. -/
theorem w1BotBlock_apply (c : Dev nD) (t : Fin cfg0.N) (a : Fin 16) (k : Fin 128) :
    (iblk0 V c 3 t : Vec Ideal S16x128 .f32) (ix2 a k) = w1Bot V c (ix2 a k) := by
  obtain ⟨-, -, -, -, -, -, e0, e1, -⟩ := blockIndex t
  unfold iblk0
  rw [View.read_apply]
  show V c main_v12 _ = V c main_v12 _
  congr 1
  funext ax
  apply Fin.ext
  match ax with
  | ⟨0, _⟩ => show win0_3.index t (0 : Fin 2) * 16 + 1 * a.val = a.val; omega
  | ⟨1, _⟩ => show win0_3.index t (1 : Fin 2) * 128 + 1 * k.val = k.val; omega

/-- The second layer's weights: the block is the whole array. -/
theorem w2Block_apply (c : Dev nD) (t : Fin cfg0.N) (k j : Fin 128) :
    (iblk0 V c 4 t : Vec Ideal S128x128 .f32) (ix2 k j) = w2Arr V c (ix2 k j) := by
  obtain ⟨-, -, -, -, -, -, -, -, e0, e1, -⟩ := blockIndex t
  unfold iblk0
  rw [View.read_apply]
  show V c main_arg5 _ = V c main_arg5 _
  congr 1
  funext ax
  apply Fin.ext
  match ax with
  | ⟨0, _⟩ => show win0_4.index t (0 : Fin 2) * 128 + 1 * k.val = k.val; omega
  | ⟨1, _⟩ => show win0_4.index t (1 : Fin 2) * 128 + 1 * j.val = j.val; omega

/-- The first layer's bias row: the block is the whole array. -/
theorem b1Block_apply (c : Dev nD) (t : Fin cfg0.N) (z : Fin 1) (k : Fin 128) :
    (iblk0 V c 5 t : Vec Ideal S1x128 .f32) (ix2 z k) = b1Row V c (ix2 z k) := by
  obtain ⟨-, -, -, -, -, -, -, -, -, -, e0, e1, -⟩ := blockIndex t
  unfold iblk0
  rw [View.read_apply]
  show V c main_v13 _ = V c main_v13 _
  congr 1
  funext ax
  apply Fin.ext
  match ax with
  | ⟨0, _⟩ => show win0_5.index t (0 : Fin 2) * 1 + 1 * z.val = z.val; omega
  | ⟨1, _⟩ => show win0_5.index t (1 : Fin 2) * 128 + 1 * k.val = k.val; omega

/-- The second layer's bias row: the block is the whole array. -/
theorem b2Block_apply (c : Dev nD) (t : Fin cfg0.N) (z : Fin 1) (j : Fin 128) :
    (iblk0 V c 6 t : Vec Ideal S1x128 .f32) (ix2 z j) = b2Row V c (ix2 z j) := by
  obtain ⟨-, -, -, -, -, -, -, -, -, -, -, -, e0, e1, -⟩ := blockIndex t
  unfold iblk0
  rw [View.read_apply]
  show V c main_v14 _ = V c main_v14 _
  congr 1
  funext ax
  apply Fin.ext
  match ax with
  | ⟨0, _⟩ => show win0_6.index t (0 : Fin 2) * 1 + 1 * z.val = z.val; omega
  | ⟨1, _⟩ => show win0_6.index t (1 : Fin 2) * 128 + 1 * j.val = j.val; omega

/-- Row `p`, feature `q` of the output block at point `t` is row `4000 t + p`, feature `q` of the message array. -/
theorem outBlock_emb (t : Fin cfg0.N) (p : Fin 4000) (q : Fin 128) (r : Fin 800000)
    (hr : r.val = t.val * 4000 + p.val) :
    (((cfg0.win 7).blk t).view.emb (ix2 p q) : S800000x128.Idx) = ix2 r q := by
  obtain ⟨-, -, -, -, -, -, -, -, -, -, -, -, -, -, e0, e1⟩ := blockIndex t
  funext ax
  apply Fin.ext
  match ax with
  | ⟨0, _⟩ => show win0_7.index t (0 : Fin 2) * 4000 + 1 * p.val = r.val; omega
  | ⟨1, _⟩ => show win0_7.index t (1 : Fin 2) * 128 + 1 * q.val = q.val; omega

/-! ## What one grid point writes back -/

/-- The body's stored value at row `p`, feature `q`, when its seven blocks are rows and whole copies of seven arrays:
    the perceptron of row `r` of the two row arrays. -/
theorem stored_of_rows (x0 : Vec Ideal S4000x128 .f32) (x1 : Vec Ideal S4000x16 .f32) (x2 : Vec Ideal S128x128 .f32)
    (x3 : Vec Ideal S16x128 .f32) (x4 : Vec Ideal S128x128 .f32) (x5 x6 : Vec Ideal S1x128 .f32)
    (A0 : Vec Ideal S800000x128 .f32) (A1 : Vec Ideal S800000x16 .f32) (A2 : Vec Ideal S128x128 .f32)
    (A3 : Vec Ideal S16x128 .f32) (A4 : Vec Ideal S128x128 .f32) (A5 A6 : Vec Ideal S1x128 .f32)
    (p : Fin 4000) (q : Fin 128) (r : Fin 800000)
    (h0 : ∀ a, x0 (ix2 p a) = A0 (ix2 r a)) (h1 : ∀ a, x1 (ix2 p a) = A1 (ix2 r a))
    (h2 : ∀ a k, x2 (ix2 a k) = A2 (ix2 a k)) (h3 : ∀ a k, x3 (ix2 a k) = A3 (ix2 a k))
    (h4 : ∀ k j, x4 (ix2 k j) = A4 (ix2 k j)) (h5 : ∀ k, x5 (ix2 0 k) = A5 (ix2 0 k))
    (h6 : ∀ j, x6 (ix2 0 j) = A6 (ix2 0 j)) :
    k0_pay1 (F := Ideal) x0 x1 x2 x3 x4 x5 x6 (ix2 p q)
      = Spec.msgAt (fun a => A0 (ix2 r a)) (fun a => A1 (ix2 r a)) (fun a k => A2 (ix2 a k)) (fun a k => A3 (ix2 a k))
          (fun k => A5 (ix2 0 k)) (fun k j => A4 (ix2 k j)) (fun j => A6 (ix2 0 j)) q := by
  rw [payload0]
  simp only [h0, h1, h2, h3, h4, h5, h6]

/-- What point `t` writes back is block `t` of `messages`. -/
theorem flushed_eq (c : Dev nD) (t : Fin cfg0.N) :
    (dat0 V c).flushed 7 t = ((cfg0.win 7).blk t).view.read (Elt Ideal) (messages V c) := by
  show (cfg0.win 7).cut (grid0.coords t) ((dat0 V c).after 7 t) = _
  rw [after0_7]
  unfold out0_7
  rw [View.canon_unit_zero zeroOffsets]
  simp only [View.ld_unit_zero (S := S4000x128) zeroOffsets, View.ld_unit_zero (S := S4000x16) zeroOffsets,
    View.ld_unit_zero (S := S128x128) zeroOffsets, View.ld_unit_zero (S := S16x128) zeroOffsets,
    View.ld_unit_zero (S := S1x128) zeroOffsets]
  funext y
  obtain ⟨p, q, rfl⟩ : ∃ (p : Fin 4000) (q : Fin 128), y = ix2 p q := ⟨y 0, y 1, eq_ix2 y⟩
  have hN : grid0.N = 200 := N_0
  have ht : t.val < 200 := hN ▸ t.isLt
  have hp : p.val < 4000 := p.isLt
  obtain ⟨r, hr⟩ : ∃ r : Fin 800000, r.val = t.val * 4000 + p.val := ⟨⟨t.val * 4000 + p.val, by omega⟩, rfl⟩
  refine (stored_of_rows (iblk0 V c 0 t) (iblk0 V c 1 t) (iblk0 V c 2 t) (iblk0 V c 3 t) (iblk0 V c 4 t) (iblk0 V c 5 t)
    (iblk0 V c 6 t) (srcRows V c) (attrRows V c) (w1Top V c) (w1Bot V c) (w2Arr V c) (b1Row V c) (b2Row V c) p q r
    (fun a => srcBlock_apply V c t p a r hr) (fun a => attrBlock_apply V c t p a r hr)
    (fun a k => w1TopBlock_apply V c t a k) (fun a k => w1BotBlock_apply V c t a k)
    (fun k j => w2Block_apply V c t k j) (fun k => b1Block_apply V c t 0 k) (fun j => b2Block_apply V c t 0 j)).trans ?_
  rw [View.read_apply]
  show _ = messages V c (((cfg0.win 7).blk t).view.emb (ix2 p q))
  rw [outBlock_emb t p q r hr]
  rfl

/-! ## The blocks cover the array -/

/-- An index of the message array is in point `t`'s block iff each coordinate is in the block's range on its axis. -/
theorem mem_blk (t : Fin cfg0.N) (i : S800000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v15).slice (win0_7.rect t)).set ↔ _
  rw [View.set_slice_whole, Rect.mem_set_unit]
  exact Iff.rfl

/-- Row `r` of the message array is in the block of the point `r / 4000`, and every point writes its block back. -/
theorem cover (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  have hN : grid0.N = 200 := N_0
  obtain ⟨t, ht⟩ : ∃ t : Fin cfg0.N, t.val = (i 0).val / 4000 :=
    ⟨⟨(i 0).val / 4000, by show (i 0).val / 4000 < grid0.N; rw [hN]; omega⟩, rfl⟩
  obtain ⟨-, -, -, -, -, -, -, -, -, -, -, -, -, -, e0, e1⟩ := blockIndex t
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- After the region the message array holds `messages`. -/
theorem arr0 (c : Dev nD) : (dat0 (F := Ideal) V c).arrAt 7 cfg0.N = messages V c :=
  (dat0 V c).arrAt_eq_of_cover 7 (messages V c) (fun t _ => flushed_eq V c t) cover

end Cert.KernelIdeal.Messages

end
-- ==== Proof.RefMessages.lean ====
/-
  The reference's messages, read at an index: the one contraction over the 144 joined features is the sum of the
  node-feature contraction and the edge-feature contraction, so each message is the same two-layer perceptron.
-/
import proofs.«107144_j5583457485518_1_alg».proof.Proof.Gen.ReferenceIdeal.Read
import proofs.«107144_j5583457485518_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Messages

open Idealize.ShloMosaic Idealize.ShloMosaic.TcCoe Idealize.ShloMosaic.ValueIdx Idealize.SL.Sem
open Cert.ReferenceIdeal Cert.ReferenceIdeal.Read

/-- The joined array, read in one of its first 128 columns, is the gathered array there. -/
theorem joined_top (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (e : Fin 800000) (a : Fin 128) :
    val_main_v11 (F := Ideal) x0 x1 x2 (ix2 e (Spec.top a)) = val_main_v10 (F := Ideal) x0 x1 (ix2 e a) := by
  unfold val_main_v11
  exact concatenate_pair_apply_left (t := S800000x144) (s₁ := S800000x128) (s₂ := S800000x16) 1
    (val_main_v10 (F := Ideal) x0 x1) x2 Gen.concatenates_S800000x128_S800000x16_S800000x144_d1
    (ix2 e (Spec.top a)) rfl (ix2 e a) (fun b => by
      match b with
      | ⟨0, _⟩ => rfl
      | ⟨1, _⟩ => rfl)

/-- The joined array, read in one of its last 16 columns, is the edge-feature array 128 columns to the left. -/
theorem joined_bot (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (e : Fin 800000) (a : Fin 16) :
    val_main_v11 (F := Ideal) x0 x1 x2 (ix2 e (Spec.bot a)) = x2 (ix2 e a) := by
  unfold val_main_v11
  exact concatenate_pair_apply_right (t := S800000x144) (s₁ := S800000x128) (s₂ := S800000x16) 1
    (val_main_v10 (F := Ideal) x0 x1) x2 Gen.concatenates_S800000x128_S800000x16_S800000x144_d1
    (ix2 e (Spec.bot a)) rfl rfl (ix2 e a)
    (fun b hb => by
      match b with
      | ⟨0, _⟩ => rfl
      | ⟨1, _⟩ => exact absurd rfl hb)
    (Nat.add_comm _ _)

/-- Hidden unit `k` of edge `e`, as the reference computes it: the contraction over the 144 joined features, split in the
    128 gathered features and the 16 edge features, plus the bias, cut off below at zero. -/
theorem ref_hidden (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (e : Fin 800000) (k : Fin 128) :
    val_main_v16 (F := Ideal) x0 x1 x2 x3 x4 (ix2 e k)
      = Spec.hiddenAt (fun a => val_main_v10 (F := Ideal) x0 x1 (ix2 e a)) (fun a => x2 (ix2 e a))
          (fun a k => x3 (ix2 (Spec.top a) k)) (fun a k => x3 (ix2 (Spec.bot a) k)) (fun k => x4 (ix1 k)) k := by
  have hl : ∀ q : Fin 144, lidx_main_v12 (ix2 e k) q = ix2 e q := fun q =>
    funext fun a => Fin.ext (by match a with | ⟨0, _⟩ => rfl | ⟨1, _⟩ => rfl)
  have hr : ∀ q : Fin 144, ridx_main_v12 (ix2 e k) q = ix2 q k := fun q =>
    funext fun a => Fin.ext (by match a with | ⟨0, _⟩ => rfl | ⟨1, _⟩ => rfl)
  have hb : idx_main_v13 (idx_main_v14 (ix2 e k)) = ix1 k :=
    funext fun a => Fin.ext (by match a with | ⟨0, _⟩ => rfl)
  rw [val_main_v16_apply, val_main_v15_apply, val_main_v12_apply, val_main_v14_apply, val_main_v13_apply,
    val_main_call0_v0_apply, val_main_call0_cst_apply, Spec.sum_joined, hb]
  simp only [hl, hr, joined_top, joined_bot]
  rfl

/-- The reference's message array at edge `e`, feature `j`, from the gathered rows (kept as the reference's own
    gather), the edge features, the joined weight matrix split in its two row ranges, and the biases. -/
theorem ref_msg (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (e : Fin 800000) (j : Fin 128) :
    val_main_v20 (F := Ideal) x0 x1 x2 x3 x4 x5 x6 (ix2 e j)
      = Spec.msgAt (fun a => val_main_v10 (F := Ideal) x0 x1 (ix2 e a)) (fun a => x2 (ix2 e a))
          (fun a k => x3 (ix2 (Spec.top a) k)) (fun a k => x3 (ix2 (Spec.bot a) k)) (fun k => x4 (ix1 k))
          (fun k j => x5 (ix2 k j)) (fun j => x6 (ix1 j)) j := by
  have hl : ∀ q : Fin 128, lidx_main_v17 (ix2 e j) q = ix2 e q := fun q =>
    funext fun a => Fin.ext (by match a with | ⟨0, _⟩ => rfl | ⟨1, _⟩ => rfl)
  have hr : ∀ q : Fin 128, ridx_main_v17 (ix2 e j) q = ix2 q j := fun q =>
    funext fun a => Fin.ext (by match a with | ⟨0, _⟩ => rfl | ⟨1, _⟩ => rfl)
  have hb : idx_main_v18 (idx_main_v19 (ix2 e j)) = ix1 j :=
    funext fun a => Fin.ext (by match a with | ⟨0, _⟩ => rfl)
  rw [val_main_v20_apply, val_main_v17_apply, val_main_v19_apply, val_main_v18_apply, hb]
  simp only [hl, hr, ref_hidden]
  rfl

end Cert.ReferenceIdeal.Messages

end
-- ==== Proof.BridgeMessages.lean ====
/-
  The messages and their sums. The gathered source rows are the same term in both programs; the kernel's message array,
  one whole-array function of the rows, weights and biases the first region finds, is the reference's message array,
  index by index; and the summed messages are the same scatter-add, at the same destinations, of those equal arrays.
-/
import proofs.«107144_j5583457485518_1_alg».proof.Proof.Glue
import proofs.«107144_j5583457485518_1_alg».proof.Proof.MessageRegion
import proofs.«107144_j5583457485518_1_alg».proof.Proof.RefMessages
import proofs.«107144_j5583457485518_1_alg».proof.Proof.Gen.ReferenceIdeal.Read

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The gathered source rows are the reference's, operation by operation: a negative source index is moved up by the
    number of nodes, then the rows are gathered. -/
theorem gather_eq (x0 : Vec Ideal S50000x128 .f32) (x1 : IVec S2x800000 32) :
    Host.gather gather_S50000x128_S800000x1_S800000x128_1_0_n_n_0_1_1128 x0
        (broadcastInDim S800000x1 ![0] bcast_S800000_S800000x1_0
          (select (cmpi .slt (srcOf x1) (broadcastInDim S800000 ![] bcast_S_S800000 (constantI S_ 32 0#32)))
            (addi (srcOf x1) (broadcastInDim S800000 ![] bcast_S_S800000 (constantI S_ 32 50000#32)))
            (srcOf x1)))
      = Cert.ReferenceIdeal.Read.val_main_v10 (F := Ideal) x0 x1 := by
  unfold Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4
    Cert.ReferenceIdeal.Read.val_main_v1 Cert.ReferenceIdeal.Read.val_main_v0 Cert.ReferenceIdeal.Read.val_main_c Cert.ReferenceIdeal.Read.val_main_c_0
  rfl

/-- The kernel's message array is the reference's. -/
theorem msg_eq (c : Dev nD) :
    Messages.messages (V1 m ρ) c
      = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨e, j, rfl⟩ : ∃ (e : Fin 800000) (j : Fin 128), i = ix2 e j := ⟨i 0, i 1, eq_ix2 i⟩
  rw [Cert.ReferenceIdeal.Messages.ref_msg]
  unfold Messages.messages
  refine msgAt_congr (fun a => ?_) (fun a => ?_) (fun a k => ?_) (fun a k => ?_) (fun k => ?_) (fun k j' => ?_) (fun j' => ?_) j
  · show (V1 m ρ c main_v10 : Vec Ideal S800000x128 .f32) (ix2 e a) = _
    rw [e_v10, gather_eq]
  · show (V1 m ρ c main_arg2 : Vec Ideal S800000x16 .f32) (ix2 e a) = _
    rw [e_arg2]
  · show (V1 m ρ c main_v11 : Vec Ideal S128x128 .f32) (ix2 a k) = _
    rw [e_v11]; exact top_at _ a k
  · show (V1 m ρ c main_v12 : Vec Ideal S16x128 .f32) (ix2 a k) = _
    rw [e_v12]; exact bot_at _ a k
  · show (V1 m ρ c main_v13 : Vec Ideal S1x128 .f32) (ix2 (0 : Fin 1) k) = _
    rw [e_v13]; exact row_at _ k
  · show (V1 m ρ c main_arg5 : Vec Ideal S128x128 .f32) (ix2 k j') = _
    rw [e_arg5]
  · show (V1 m ρ c main_v14 : Vec Ideal S1x128 .f32) (ix2 (0 : Fin 1) j') = _
    rw [e_v14]; exact row_at _ j'

/-- The message array the second stretch of host operations finds is what the first region left. -/
theorem e_v15 (c : Dev nD) : (W2 m ρ c (Proc.devRef .tc main_v15) : Vec Ideal S800000x128 .f32) = Messages.messages (V1 m ρ) c :=
  (W2_arr m ρ c 7).trans (Messages.arr0 (V1 m ρ) c)

/-- The two programs' scatter-adds of one update array are one operation: zeros, the destination column as a column of
    indices, the updates. -/
theorem scatter_eq (x1 : IVec S2x800000 32) (u : Vec Ideal S800000x128 .f32) :
    Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (dstOf x1)) u
      = Host.scatterAdd (F := Ideal) Cert.ReferenceIdeal.scatter_S50000x128_S800000x1_S800000x128_1_0_0_1
          (Cert.ReferenceIdeal.Read.val_main_v21 (F := Ideal)) (Cert.ReferenceIdeal.Read.val_main_v22 (F := Ideal) x1) u := by
  unfold Cert.ReferenceIdeal.Read.val_main_v21 Cert.ReferenceIdeal.Read.val_main_v22 Cert.ReferenceIdeal.Read.val_main_v3 Cert.ReferenceIdeal.Read.val_main_v2 Cert.ReferenceIdeal.Read.val_main_cst
  rfl

/-- The summed messages: the same scatter-add, at the same destinations, of equal updates. -/
theorem agg_eq (c : Dev nD) :
    (V3 m ρ c main_v18 : Vec Ideal S50000x128 .f32)
      = Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [e_v18, e_v3, e_v15, msg_eq, scatter_eq]
  unfold Cert.ReferenceIdeal.Read.val_main_v23
  rfl

end Cert.Bridge

end
-- ==== Proof.BridgeCounts.lean ====
/-
  The counts. The kernel's program and the reference form the same vector of one plus the number of messages per node: a
  scatter-add of ones into zeros at the destination column, plus one. A scatter-add of ones into zeros is a sum of ones
  over a finite set of edges, so one plus it is at least one, never zero; and the kernel program's per-node scale is the
  quotient of one by it.
-/
import proofs.«107144_j5583457485518_1_alg».proof.Proof.Glue
import proofs.«107144_j5583457485518_1_alg».proof.Proof.Gen.ReferenceIdeal.Read

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- One plus a scatter-add of ones into zeros is not zero, whatever the indices: it is one plus a sum of ones over the
    updates that land on the element. -/
theorem scatter_ones_ne {s si su : Shape} (d : ScatterDims s si su) {w : Nat} (x : FVec Ideal s .f32) (idx : IVec si w)
    (upd : FVec Ideal su .f32) (hx : ∀ i, x i = 0) (hu : ∀ j, upd j = 1) (i : s.Idx) (one : Ideal .f32) (h1 : one = 1) :
    FloatOps.addf one (Host.scatterAdd d x idx upd i) ≠ 0 := by
  unfold Host.scatterAdd
  rw [Ideal.addf_def, Ideal.hostScatterAdd_def]
  unfold Ideal.hostScatterAdd
  rw [h1, hx i, Finset.sum_congr rfl (fun j _ => hu j)]
  exact Spec.one_add_count_ne_zero _

/-- The kernel program's vector of one plus the counts is the reference's, operation by operation. -/
theorem counts_eq (x1 : IVec S2x800000 32) :
    addf (broadcastInDim S50000 ![] bcast_S_S50000 (constant (F := Ideal) S_ .f32 0x3F800000#32))
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (dstOf x1))
            (broadcastInDim S800000 ![] bcast_S_S800000 (constant (F := Ideal) S_ .f32 0x3F800000#32)))
      = Cert.ReferenceIdeal.Read.val_main_v29 (F := Ideal) x1 := by
  unfold Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24
    Cert.ReferenceIdeal.Read.val_main_v3 Cert.ReferenceIdeal.Read.val_main_v2 Cert.ReferenceIdeal.Read.val_main_cst_1 Cert.ReferenceIdeal.Read.val_main_cst_2 Cert.ReferenceIdeal.Read.val_main_cst_3
  rfl

/-- One plus a node's count is not zero. -/
theorem count_ne (x1 : IVec S2x800000 32) (v : Fin 50000) :
    Cert.ReferenceIdeal.Read.val_main_v29 (F := Ideal) x1 (ix1 v) ≠ 0 := by
  rw [Cert.ReferenceIdeal.Read.val_main_v29_apply, Cert.ReferenceIdeal.Read.val_main_v28_apply, Cert.ReferenceIdeal.Read.val_main_cst_3_apply]
  unfold Cert.ReferenceIdeal.Read.val_main_v27
  refine scatter_ones_ne _ _ _ _ (fun i => ?_) (fun j => ?_) _ _ ?_
  · rw [Cert.ReferenceIdeal.Read.val_main_v25_apply, Cert.ReferenceIdeal.Read.val_main_cst_2_apply, Ideal.ofBits_def]; exact Ideal.ofBits_zero_f32
  · rw [Cert.ReferenceIdeal.Read.val_main_v24_apply, Cert.ReferenceIdeal.Read.val_main_cst_1_apply, Ideal.ofBits_def]; exact oneF_eq
  · rw [Ideal.ofBits_def]; exact oneF_eq

/-- The quotient of the vector of ones by a vector, at a node: one over the vector's entry. -/
theorem ones_div (cnt : Vec Ideal S50000 .f32) (v : Fin 50000) :
    Host.divf (F := Ideal) (broadcastInDim S50000 ![] bcast_S_S50000 (constant (F := Ideal) S_ .f32 0x3F800000#32)) cnt (ix1 v)
      = Ideal.div 1 (cnt (ix1 v)) := by
  show Ideal.div (broadcastInDim S50000 ![] bcast_S_S50000 (constant (F := Ideal) S_ .f32 0x3F800000#32) (ix1 v)) (cnt (ix1 v)) = _
  rw [broadcastInDim_apply _ bcast_S_S50000 (constant (F := Ideal) S_ .f32 0x3F800000#32) (ix1 v) ix0 (fun a => a.elim0)]
  show Ideal.div Spec.oneF _ = _
  rw [oneF_eq]

/-- The per-node scale the kernel's program passes to the node update: one over one plus the count. -/
theorem scale_at (c : Dev nD) (v : Fin 50000) :
    (V3 m ρ c main_v27 : Vec Ideal S50000x1 .f32) (ix2 v (0 : Fin 1))
      = Ideal.div 1 (Cert.ReferenceIdeal.Read.val_main_v29 (F := Ideal) (m ((c.tc : Thread nD τ).loc main_arg1)) (ix1 v)) := by
  rw [e_v27, e_v3, Cert.Lib.Keepdims.shapeCast_a_a1_apply, counts_eq]
  generalize Cert.ReferenceIdeal.Read.val_main_v29 (F := Ideal) (m ((c.tc : Thread nD τ).loc main_arg1)) = cnt
  exact ones_div cnt v

end Cert.Bridge

end
-- ==== Proof.NodePayload.lean ====
/-
  The node-update kernel's arithmetic on one block, read at an index: row `p`, feature `q` of what the body stores is the
  layer normalisation of row `p` of (features + summed messages × the row's scale). The two lane sums are plain sums over
  the 128 features; a column cast and a column broadcast carry a per-row value along the row.
-/
import proofs.«107144_j5583457485518_1_alg».proof.Proof.Gen.KernelIdeal.Skeleton
import proofs.«107144_j5583457485518_1_alg».proof.Proof.Spec
import proofs.«107144_j5583457485518_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Nodes

open Idealize.ShloMosaic Idealize.ShloMosaic.TcCoe Idealize.ShloMosaic.ValueIdx Idealize.SL.Sem
open Cert.KernelIdeal Cert.KernelIdeal.Gen

/-- A lane sum of a block kept as a column: at row `p` (whatever the unit coordinate) it is the plain sum of the row's
    128 entries. -/
private theorem laneSum_col (v : FVec Ideal S2000x128 .f32) (hφ : FKind.Formats .f32)
    (hacc : (0x00000000#32 : BitVec 32) = FKind.add.neutral .f32 hφ) (p : Fin 2000) (u : Fin 1) :
    shapeCast S2000x1 (multiReduction (F := Ideal) .add [1] S2000 v 0x00000000#32 reduces_S2000x128_S2000 hφ hacc)
        shapeCasts_S2000_S2000x1 (ix2 p u)
      = ∑ k : Fin 128, v (ix2 p k) := by
  refine (Cert.Lib.Keepdims.shapeCast_a_a1_apply _ shapeCasts_S2000_S2000x1 p u).trans ?_
  refine (Ideal.multiReduction_add_single v 0x00000000#32 reduces_S2000x128_S2000 hφ hacc (ix1 p)).trans ?_
  refine Finset.sum_congr rfl fun k _ => congrArg v ?_
  funext a
  match a with
  | ⟨0, _⟩ => exact Fin.ext rfl
  | ⟨1, _⟩ => exact Fin.ext rfl

/-- The mixed block: features plus summed messages times the row's scale, the scale carried along the row. -/
private def mixed (x0 x1 : Vec Ideal S2000x128 .f32) (x2 : Vec Ideal S2000x1 .f32) : FVec Ideal S2000x128 .f32 :=
  addf x0 (mulf (shapeCast S2000x128 x1 shapeCasts_S2000x128_S2000x128)
    (broadcastTo S2000x128 (shapeCast S2000x1 x2 shapeCasts_S2000x1_S2000x1) broadcasts_S2000x1_S2000x128))

/-- Entry `(p, a)` of the mixed block. -/
private theorem mixed_apply (x0 x1 : Vec Ideal S2000x128 .f32) (x2 : Vec Ideal S2000x1 .f32) (p : Fin 2000) (a : Fin 128) :
    mixed x0 x1 x2 (ix2 p a) = x0 (ix2 p a) + x1 (ix2 p a) * x2 (ix2 p 0) := by
  unfold mixed
  rw [shapeCast_self, shapeCast_self]
  exact congrArg (fun t => x0 (ix2 p a) + x1 (ix2 p a) * t)
    (Cert.Lib.Keepdims.broadcastTo_a1_ab_apply x2 broadcasts_S2000x1_S2000x128 p a)

section Norm

variable (X : FVec Ideal S2000x128 .f32) (hφ : FKind.Formats .f32)
  (hacc : (0x00000000#32 : BitVec 32) = FKind.add.neutral .f32 hφ)

/-- The column of row means of a block: each row's lane sum divided by the width. -/
private def meanCol : FVec Ideal S2000x1 .f32 :=
  divf (shapeCast S2000x1 (multiReduction (F := Ideal) .add [1] S2000 X 0x00000000#32 reduces_S2000x128_S2000 hφ hacc)
      shapeCasts_S2000_S2000x1)
    (broadcast S2000x1 (Scalar.ofBits .f32 0x43000000#32))

/-- Row `p` of the column of means is the row's sum over the width. -/
private theorem meanCol_apply (p : Fin 2000) (u : Fin 1) :
    meanCol X hφ hacc (ix2 p u) = Ideal.div (∑ k : Fin 128, X (ix2 p k)) Spec.widthF :=
  congrArg (fun t => Ideal.div t Spec.widthF) (laneSum_col X hφ hacc p u)

/-- The block centred row by row: each entry minus its row's mean, the mean carried along the row. -/
private def centred : FVec Ideal S2000x128 .f32 :=
  subf X (broadcastTo S2000x128 (meanCol X hφ hacc) broadcasts_S2000x1_S2000x128)

/-- Entry `(p, a)` of the centred block. -/
private theorem centred_apply (p : Fin 2000) (a : Fin 128) :
    centred X hφ hacc (ix2 p a) = X (ix2 p a) - Ideal.div (∑ k : Fin 128, X (ix2 p k)) Spec.widthF := by
  refine (congrArg (fun t => X (ix2 p a) - t)
    (Cert.Lib.Keepdims.broadcastTo_a1_ab_apply (meanCol X hφ hacc) broadcasts_S2000x1_S2000x128 p a)).trans ?_
  exact congrArg (fun t => X (ix2 p a) - t) (meanCol_apply X hφ hacc p 0)

/-- The column of reciprocal standard deviations: the reciprocal square root of each row's mean square of the centred
    block plus the small constant. -/
private def rstdCol : FVec Ideal S2000x1 .f32 :=
  rsqrt (addf (meanCol (mulf (centred X hφ hacc) (centred X hφ hacc)) hφ hacc)
    (broadcast S2000x1 (Scalar.ofBits .f32 0x3727C5AC#32)))

/-- Row `p` of that column. -/
private theorem rstdCol_apply (p : Fin 2000) (u : Fin 1) :
    rstdCol X hφ hacc (ix2 p u)
      = Ideal.rsqrt (Ideal.div (∑ a : Fin 128,
          (X (ix2 p a) - Ideal.div (∑ k : Fin 128, X (ix2 p k)) Spec.widthF)
            * (X (ix2 p a) - Ideal.div (∑ k : Fin 128, X (ix2 p k)) Spec.widthF)) Spec.widthF + Spec.epsF) := by
  refine congrArg (fun t => Ideal.rsqrt (t + Spec.epsF)) ?_
  refine (meanCol_apply (mulf (centred X hφ hacc) (centred X hφ hacc)) hφ hacc p u).trans ?_
  refine congrArg (fun t => Ideal.div t Spec.widthF) (Finset.sum_congr rfl fun a _ => ?_)
  exact congrArg (fun t => t * t) (centred_apply X hφ hacc p a)

/-- The normalised block with the affine map, at `(p, q)`: the layer normalisation of row `p` at feature `q`. -/
private theorem norm_apply (g b : Vec Ideal S1x128 .f32) (p : Fin 2000) (q : Fin 128) :
    addf (mulf (mulf (centred X hφ hacc) (broadcastTo S2000x128 (rstdCol X hφ hacc) broadcasts_S2000x1_S2000x128))
        (broadcastTo S2000x128 (shapeCast S1x128 g shapeCasts_S1x128_S1x128) broadcasts_S1x128_S2000x128))
      (broadcastTo S2000x128 (shapeCast S1x128 b shapeCasts_S1x128_S1x128) broadcasts_S1x128_S2000x128) (ix2 p q)
      = Spec.lnAt (fun a => X (ix2 p a)) (fun a => g (ix2 0 a)) (fun a => b (ix2 0 a)) q := by
  rw [shapeCast_self, shapeCast_self]
  show centred X hφ hacc (ix2 p q) * broadcastTo S2000x128 (rstdCol X hφ hacc) broadcasts_S2000x1_S2000x128 (ix2 p q)
      * broadcastTo S2000x128 g broadcasts_S1x128_S2000x128 (ix2 p q)
      + broadcastTo S2000x128 b broadcasts_S1x128_S2000x128 (ix2 p q) = _
  rw [broadcastTo_1b_ab_apply g, broadcastTo_1b_ab_apply b,
    Cert.Lib.Keepdims.broadcastTo_a1_ab_apply (rstdCol X hφ hacc), rstdCol_apply, centred_apply]
  rfl

end Norm

/-- The body's stored value at row `p`, feature `q` of the block. -/
theorem payload1 (x0 x1 : Vec Ideal S2000x128 .f32) (x2 : Vec Ideal S2000x1 .f32) (x3 x4 : Vec Ideal S1x128 .f32)
    (p : Fin 2000) (q : Fin 128) :
    k1_pay1 (F := Ideal) x0 x1 x2 x3 x4 (ix2 p q)
      = Spec.lnAt (fun a => x0 (ix2 p a) + x1 (ix2 p a) * x2 (ix2 p 0)) (fun a => x3 (ix2 0 a)) (fun a => x4 (ix2 0 a)) q := by
  refine (norm_apply (mixed x0 x1 x2) (.inl rfl) rfl x3 x4 p q).trans ?_
  exact congrArg (fun x => Spec.lnAt x (fun a => x3 (ix2 0 a)) (fun a => x4 (ix2 0 a)) q)
    (funext fun a => mixed_apply x0 x1 x2 p a)

end Cert.KernelIdeal.Nodes

end
-- ==== Proof.NodeRegion.lean ====
/-
  What the node-update kernel leaves in its output array: row by row, the layer normalisation of the node's features
  plus its summed messages times the node's scale.
-/
import proofs.«107144_j5583457485518_1_alg».proof.Proof.Gen.KernelIdeal.Frame
import proofs.«107144_j5583457485518_1_alg».proof.Proof.Spec
import proofs.«107144_j5583457485518_1_alg».proof.Proof.NodePayload
import proofs.«107144_j5583457485518_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Nodes

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The arrays the node-update kernel reads, as the region finds them, each at its literal shape. -/
abbrev feats (c : Dev nD) : Vec Ideal S50000x128 .f32 := V c main_arg0
abbrev summed (c : Dev nD) : Vec Ideal S50000x128 .f32 := V c main_v18
abbrev scale (c : Dev nD) : Vec Ideal S50000x1 .f32 := V c main_v27
abbrev gainRow (c : Dev nD) : Vec Ideal S1x128 .f32 := V c main_v28
abbrev shiftRow (c : Dev nD) : Vec Ideal S1x128 .f32 := V c main_v29

/-- The updated node features as one function of those arrays. -/
def updated (c : Dev nD) : Vec Ideal S50000x128 .f32 := fun i =>
  Spec.lnAt (fun a => feats V c (ix2 (i 0) a) + summed V c (ix2 (i 0) a) * scale V c (ix2 (i 0) 0))
    (fun a => gainRow V c (ix2 0 a)) (fun a => shiftRow V c (ix2 0 a)) (i 1)

/-- The zero offsets of an access to a whole buffer, as a constant function. -/
theorem zeroOffsets : (![0, 0] : Fin 2 → Nat) = fun _ => 0 := funext fun a => by fin_cases a <;> rfl

/-- The printed index maps over the 25 grid points: a row-block window's block index is the point's number along the rows
    and 0 along the features; the two one-row windows stay at block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block of the node features is row `2000 t + p` of the array. -/
theorem featsBlock (c : Dev nD) (t : Fin cfg1.N) (p : Fin 2000) (a : Fin 128) (r : Fin 50000)
    (hr : r.val = t.val * 2000 + p.val) :
    (iblk1 V c 0 t : Vec Ideal S2000x128 .f32) (ix2 p a) = feats V c (ix2 r a) := by
  obtain ⟨e0, e1, -⟩ := blockIndex t
  unfold iblk1
  rw [View.read_apply]
  show V c main_arg0 _ = V c main_arg0 _
  congr 1
  funext ax
  apply Fin.ext
  match ax with
  | ⟨0, _⟩ => show win1_0.index t (0 : Fin 2) * 2000 + 1 * p.val = r.val; rw [e0, hr]; omega
  | ⟨1, _⟩ => show win1_0.index t (1 : Fin 2) * 128 + 1 * a.val = a.val; rw [e1]; omega

/-- Row `p` of point `t`'s block of the summed messages is row `2000 t + p` of the array. -/
theorem summedBlock (c : Dev nD) (t : Fin cfg1.N) (p : Fin 2000) (a : Fin 128) (r : Fin 50000)
    (hr : r.val = t.val * 2000 + p.val) :
    (iblk1 V c 1 t : Vec Ideal S2000x128 .f32) (ix2 p a) = summed V c (ix2 r a) := by
  obtain ⟨-, -, e0, e1, -⟩ := blockIndex t
  unfold iblk1
  rw [View.read_apply]
  show V c main_v18 _ = V c main_v18 _
  congr 1
  funext ax
  apply Fin.ext
  match ax with
  | ⟨0, _⟩ => show win1_1.index t (0 : Fin 2) * 2000 + 1 * p.val = r.val; rw [e0, hr]; omega
  | ⟨1, _⟩ => show win1_1.index t (1 : Fin 2) * 128 + 1 * a.val = a.val; rw [e1]; omega

/-- Row `p` of point `t`'s block of the per-node scale is row `2000 t + p` of the one-column array. -/
theorem scaleBlock (c : Dev nD) (t : Fin cfg1.N) (p : Fin 2000) (r : Fin 50000)
    (hr : r.val = t.val * 2000 + p.val) :
    (iblk1 V c 2 t : Vec Ideal S2000x1 .f32) (ix2 p (0 : Fin 1)) = scale V c (ix2 r (0 : Fin 1)) := by
  obtain ⟨-, -, -, -, e0, e1, -⟩ := blockIndex t
  unfold iblk1
  rw [View.read_apply]
  show V c main_v27 _ = V c main_v27 _
  congr 1
  funext ax
  apply Fin.ext
  match ax with
  | ⟨0, _⟩ => show win1_2.index t (0 : Fin 2) * 2000 + 1 * p.val = r.val; rw [e0, hr]; omega
  | ⟨1, _⟩ => show win1_2.index t (1 : Fin 2) * 1 + 1 * 0 = 0; rw [e1]

/-- Every point's block of the gain row is the whole one-row array. -/
theorem gainBlock (c : Dev nD) (t : Fin cfg1.N) (a : Fin 128) :
    (iblk1 V c 3 t : Vec Ideal S1x128 .f32) (ix2 (0 : Fin 1) a) = gainRow V c (ix2 (0 : Fin 1) a) := by
  obtain ⟨-, -, -, -, -, -, e0, e1, -⟩ := blockIndex t
  unfold iblk1
  rw [View.read_apply]
  show V c main_v28 _ = V c main_v28 _
  congr 1
  funext ax
  apply Fin.ext
  match ax with
  | ⟨0, _⟩ => show win1_3.index t (0 : Fin 2) * 1 + 1 * 0 = 0; rw [e0]
  | ⟨1, _⟩ => show win1_3.index t (1 : Fin 2) * 128 + 1 * a.val = a.val; rw [e1]; omega

/-- Every point's block of the shift row is the whole one-row array. -/
theorem shiftBlock (c : Dev nD) (t : Fin cfg1.N) (a : Fin 128) :
    (iblk1 V c 4 t : Vec Ideal S1x128 .f32) (ix2 (0 : Fin 1) a) = shiftRow V c (ix2 (0 : Fin 1) a) := by
  obtain ⟨-, -, -, -, -, -, -, -, e0, e1, -⟩ := blockIndex t
  unfold iblk1
  rw [View.read_apply]
  show V c main_v29 _ = V c main_v29 _
  congr 1
  funext ax
  apply Fin.ext
  match ax with
  | ⟨0, _⟩ => show win1_4.index t (0 : Fin 2) * 1 + 1 * 0 = 0; rw [e0]
  | ⟨1, _⟩ => show win1_4.index t (1 : Fin 2) * 128 + 1 * a.val = a.val; rw [e1]; omega

/-- The normalised row depends on its three rows only through their values. -/
theorem lnAt_rows_congr {x x' g g' b b' : Fin 128 → EReal} (hx : ∀ a, x a = x' a) (hg : ∀ a, g a = g' a)
    (hb : ∀ a, b a = b' a) (j : Fin 128) : Spec.lnAt x g b j = Spec.lnAt x' g' b' j := by
  rw [show x = x' from funext hx, show g = g' from funext hg, show b = b' from funext hb]

/-- The body's stored value at row `p`, feature `q` of a block whose rows are rows of the arrays (row `p` of the three
    row blocks being row `r` of their arrays, the two one-row blocks being their arrays) is `updated` at `(r, q)`. -/
theorem payload_updated (c : Dev nD) (x0 x1 : Vec Ideal S2000x128 .f32) (x2 : Vec Ideal S2000x1 .f32)
    (x3 x4 : Vec Ideal S1x128 .f32) (p : Fin 2000) (q : Fin 128) (r : Fin 50000)
    (h0 : ∀ a : Fin 128, x0 (ix2 p a) = feats V c (ix2 r a))
    (h1 : ∀ a : Fin 128, x1 (ix2 p a) = summed V c (ix2 r a))
    (h2 : x2 (ix2 p (0 : Fin 1)) = scale V c (ix2 r (0 : Fin 1)))
    (h3 : ∀ a : Fin 128, x3 (ix2 (0 : Fin 1) a) = gainRow V c (ix2 (0 : Fin 1) a))
    (h4 : ∀ a : Fin 128, x4 (ix2 (0 : Fin 1) a) = shiftRow V c (ix2 (0 : Fin 1) a)) :
    k1_pay1 (F := Ideal) x0 x1 x2 x3 x4 (ix2 p q) = updated V c (ix2 r q) := by
  rw [payload1]
  unfold updated
  refine lnAt_rows_congr (fun a => ?_) h3 h4 q
  show x0 (ix2 p a) + x1 (ix2 p a) * x2 (ix2 p (0 : Fin 1)) = feats V c (ix2 r a) + summed V c (ix2 r a) * scale V c (ix2 r (0 : Fin 1))
  rw [h0, h1, h2]

/-- WHAT POINT `t` WRITES BACK is block `t` of `updated`. -/
theorem flushed_eq (c : Dev nD) (t : Fin cfg1.N) :
    (dat1 V c).flushed 5 t = ((cfg1.win 5).blk t).view.read (Elt Ideal) (updated V c) := by
  show (cfg1.win 5).cut (grid1.coords t) ((dat1 V c).after 5 t) = _
  rw [after1_5]
  unfold out1_5
  rw [View.canon_unit_zero zeroOffsets]
  simp only [View.ld_unit_zero (S := S2000x128) zeroOffsets, View.ld_unit_zero (S := S2000x1) zeroOffsets, View.ld_unit_zero (S := S1x128) zeroOffsets]
  funext y
  obtain ⟨p, q, rfl⟩ : ∃ (p : Fin 2000) (q : Fin 128), y = ix2 p q := ⟨y 0, y 1, eq_ix2 y⟩
  rw [View.read_apply]
  obtain ⟨-, -, -, -, -, -, -, -, -, -, e0, e1⟩ := blockIndex t
  have ht : t.val < 25 := lt_of_lt_of_eq t.isLt N_1
  have hp : p.val < 2000 := p.isLt
  have hlt : t.val * 2000 + p.val < 50000 := by omega
  have hE : ((cfg1.win 5).blk t).view.emb (ix2 p q) = ix2 (⟨t.val * 2000 + p.val, hlt⟩ : Fin 50000) q := by
    funext ax
    apply Fin.ext
    match ax with
    | ⟨0, _⟩ => show win1_5.index t (0 : Fin 2) * 2000 + 1 * p.val = t.val * 2000 + p.val; rw [e0]; omega
    | ⟨1, _⟩ => show win1_5.index t (1 : Fin 2) * 128 + 1 * q.val = q.val; rw [e1]; omega
  exact (payload_updated V c (iblk1 V c 0 t) (iblk1 V c 1 t) (iblk1 V c 2 t) (iblk1 V c 3 t) (iblk1 V c 4 t) p q ⟨_, hlt⟩
    (fun a => featsBlock V c t p a ⟨_, hlt⟩ rfl) (fun a => summedBlock V c t p a ⟨_, hlt⟩ rfl) (scaleBlock V c t p ⟨_, hlt⟩ rfl)
    (gainBlock V c t) (shiftBlock V c t)).trans (congrArg (updated V c) hE).symm

/-- A row of the array is in point `t`'s block iff each coordinate is in the block's range on its axis. -/
theorem mem_block (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v30).slice (win1_5.rect t)).set ↔ _
  rw [View.set_slice_whole, Rect.mem_set_unit]
  exact Iff.rfl

/-- Every index of the array is in the block of a point that writes back: row `r` in that of point `r / 2000`. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, e0, e1⟩ := blockIndex t
  refine ⟨t, flush1_5 t, ?_⟩
  rw [mem_block]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- After the region the output array holds `updated`. -/
theorem arr1 (c : Dev nD) : (dat1 (F := Ideal) V c).arrAt 5 cfg1.N = updated V c := by
  exact (dat1 V c).arrAt_eq_of_cover 5 (updated V c) (fun t _ => flushed_eq V c t) covered

end Cert.KernelIdeal.Nodes

end
-- ==== Proof.RefNodes.lean ====
/-
  The reference's result, read at an index: the layer normalisation of the node's features plus its summed messages
  divided by its count.
-/
import proofs.«107144_j5583457485518_1_alg».proof.Proof.Gen.ReferenceIdeal.Read
import proofs.«107144_j5583457485518_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Nodes

open Idealize.ShloMosaic Idealize.ShloMosaic.TcCoe Idealize.ShloMosaic.ValueIdx Idealize.SL.Sem
open Cert.ReferenceIdeal Cert.ReferenceIdeal.Read

/-! ## Index equations: a broadcast or a reduction read at `ix2 v a` reads its operand at the node's own index -/

theorem idx_row (v : Fin 50000) (k : Fin 128) : idx_main_v34 (ix1 v) k = ix2 v k :=
  funext fun a => Fin.ext (by match a with | ⟨0, _⟩ => rfl | ⟨1, _⟩ => rfl)

theorem idx_row' (v : Fin 50000) (k : Fin 128) : idx_main_v41 (ix1 v) k = ix2 v k :=
  funext fun a => Fin.ext (by match a with | ⟨0, _⟩ => rfl | ⟨1, _⟩ => rfl)

theorem idx_col (v : Fin 50000) (a : Fin 128) : idx_main_v38 (ix2 v a) = ix2 v (0 : Fin 1) :=
  funext fun d => Fin.ext (by match d with | ⟨0, _⟩ => rfl | ⟨1, _⟩ => rfl)

theorem idx_node (v : Fin 50000) : idx_main_v35 (ix2 v (0 : Fin 1)) = ix1 v :=
  funext fun d => Fin.ext (by match d with | ⟨0, _⟩ => rfl)

theorem idx_feat (v : Fin 50000) (j : Fin 128) : idx_main_v52 (idx_main_v53 (ix2 v j)) = ix1 j :=
  funext fun d => Fin.ext (by match d with | ⟨0, _⟩ => rfl)

/-! ## The row, its mean, the centred row, the variance -/

/-- The row that is normalised, at feature `a`: the node's own feature plus its summed message divided by its count (the
    count is one number per node, broadcast along the features). -/
theorem row_at (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (v : Fin 50000) (a : Fin 128) :
    val_main_v33 (F := Ideal) x0 x1 x2 x3 x4 x5 x6 (ix2 v a)
      = x0 (ix2 v a) + Ideal.div (val_main_v23 (F := Ideal) x0 x1 x2 x3 x4 x5 x6 (ix2 v a)) (val_main_v29 (F := Ideal) x1 (ix1 v)) := by
  rw [val_main_v33_apply, val_main_v32_apply, val_main_v31_apply, val_main_v30_apply, Ideal.addf_def, Ideal.hostDivf_def]
  have hi : idx_main_v30 (idx_main_v31 (ix2 v a)) = ix1 v := funext fun d => Fin.ext (by match d with | ⟨0, _⟩ => rfl)
  rw [hi]

/-- The row's mean: the host's sum along the features starts from the zero word, so it is the plain sum; then the quotient
    by the width. -/
theorem mean_at (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (v : Fin 50000) (r : Fin 128 → EReal)
    (h : ∀ a, val_main_v33 (F := Ideal) x0 x1 x2 x3 x4 x5 x6 (ix2 v a) = r a) :
    val_main_v37 (F := Ideal) x0 x1 x2 x3 x4 x5 x6 (ix2 v (0 : Fin 1)) = Ideal.div (∑ a : Fin 128, r a) Spec.widthF := by
  rw [val_main_v37_apply, val_main_v35_apply, val_main_v36_apply, val_main_cst_5_apply, val_main_v34_apply,
    val_main_cst_4_apply, Ideal.hostDivf_def, Ideal.ofBits_def, Ideal.ofBits_def, Ideal.ofBits_zero_f32, zero_add, idx_node]
  refine congrArg (Ideal.div · _) (Finset.sum_congr rfl fun k _ => ?_)
  rw [idx_row, h k]

/-- The centred row (the program computes it twice: once for the variance, once for the result). -/
theorem centred_at (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (v : Fin 50000) (r : Fin 128 → EReal)
    (h : ∀ a, val_main_v33 (F := Ideal) x0 x1 x2 x3 x4 x5 x6 (ix2 v a) = r a) (a : Fin 128) :
    val_main_v39 (F := Ideal) x0 x1 x2 x3 x4 x5 x6 (ix2 v a) = r a - Ideal.div (∑ a' : Fin 128, r a') Spec.widthF := by
  rw [val_main_v39_apply, val_main_v38_apply, idx_col, mean_at x0 x1 x2 x3 x4 x5 x6 v r h, h a, Ideal.subf_def]

theorem centred_at' (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (v : Fin 50000) (r : Fin 128 → EReal)
    (h : ∀ a, val_main_v33 (F := Ideal) x0 x1 x2 x3 x4 x5 x6 (ix2 v a) = r a) (a : Fin 128) :
    val_main_v46 (F := Ideal) x0 x1 x2 x3 x4 x5 x6 (ix2 v a) = r a - Ideal.div (∑ a' : Fin 128, r a') Spec.widthF := by
  rw [val_main_v46_apply, val_main_v45_apply]
  have hi : idx_main_v45 (ix2 v a) = ix2 v (0 : Fin 1) := funext fun d => Fin.ext (by match d with | ⟨0, _⟩ => rfl | ⟨1, _⟩ => rfl)
  rw [hi, mean_at x0 x1 x2 x3 x4 x5 x6 v r h, h a, Ideal.subf_def]

/-- The variance: the mean of the squares of the centred row. -/
theorem var_at (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (v : Fin 50000) (r : Fin 128 → EReal)
    (h : ∀ a, val_main_v33 (F := Ideal) x0 x1 x2 x3 x4 x5 x6 (ix2 v a) = r a) :
    val_main_v44 (F := Ideal) x0 x1 x2 x3 x4 x5 x6 (ix2 v (0 : Fin 1))
      = Ideal.div (∑ a : Fin 128, (r a - Ideal.div (∑ a' : Fin 128, r a') Spec.widthF) * (r a - Ideal.div (∑ a' : Fin 128, r a') Spec.widthF)) Spec.widthF := by
  rw [val_main_v44_apply, val_main_v42_apply, val_main_v43_apply, val_main_cst_7_apply, val_main_v41_apply,
    val_main_cst_6_apply, Ideal.hostDivf_def, Ideal.ofBits_def, Ideal.ofBits_def, Ideal.ofBits_zero_f32, zero_add]
  have hi : idx_main_v42 (ix2 v (0 : Fin 1)) = ix1 v := funext fun d => Fin.ext (by match d with | ⟨0, _⟩ => rfl)
  rw [hi]
  refine congrArg (Ideal.div · _) (Finset.sum_congr rfl fun k _ => ?_)
  rw [idx_row', val_main_v40_apply, centred_at x0 x1 x2 x3 x4 x5 x6 v r h k, Ideal.mulf_def]

/-- The reference's result at node `v`, feature `j`, over its own summed-message array and count vector. -/
theorem ref_node (x0 : (⟨S50000x128, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (x5 : (⟨S128x128, .f32⟩ : BufTy).Contents (Elt Ideal))
    (x6 x7 x8 : (⟨S128, .f32⟩ : BufTy).Contents (Elt Ideal)) (v : Fin 50000) (j : Fin 128) :
    val_main_v57 (F := Ideal) x0 x1 x2 x3 x4 x5 x6 x7 x8 (ix2 v j)
      = Spec.lnAt (fun a => x0 (ix2 v a) + Ideal.div (val_main_v23 (F := Ideal) x0 x1 x2 x3 x4 x5 x6 (ix2 v a)) (val_main_v29 (F := Ideal) x1 (ix1 v)))
          (fun a => x7 (ix1 a)) (fun a => x8 (ix1 a)) j := by
  have h := fun a => row_at x0 x1 x2 x3 x4 x5 x6 v a
  rw [val_main_v57_apply, val_main_v54_apply, val_main_v51_apply, val_main_v50_apply, val_main_v49_apply, val_main_v48_apply,
    val_main_v47_apply, val_main_cst_8_apply, val_main_v53_apply, val_main_v52_apply, val_main_v56_apply, val_main_v55_apply]
  have hc : idx_main_v50 (ix2 v j) = ix2 v (0 : Fin 1) := funext fun d => Fin.ext (by match d with | ⟨0, _⟩ => rfl | ⟨1, _⟩ => rfl)
  have hf : idx_main_v55 (idx_main_v56 (ix2 v j)) = ix1 j := funext fun d => Fin.ext (by match d with | ⟨0, _⟩ => rfl)
  rw [hc, hf, idx_feat, var_at x0 x1 x2 x3 x4 x5 x6 v _ h, centred_at' x0 x1 x2 x3 x4 x5 x6 v _ h j, Ideal.addf_def, Ideal.mulf_def, Ideal.mulf_def,
    Ideal.addf_def, Ideal.hostUnary_rsqrt_def, Ideal.ofBits_def]
  rfl

end Cert.ReferenceIdeal.Nodes

end
-- ==== Proof.Bridge.lean ====
/-
  The two programs compute one function.

  The kernel's program: gather the source rows, run the message perceptron block by block, add each message into its
  destination node and count the messages per node, form the reciprocal of one plus the count, and normalise
  features + summed messages × that reciprocal, block by block. The reference does the same with one contraction over
  the 144 joined features in place of two, and divides the summed messages by one plus the count.

  The summed messages agree (Proof/BridgeMessages.lean), the counts are one term and never zero (Proof/BridgeCounts.lean),
  so dividing by one plus the count is multiplying by its reciprocal (`Spec.div_eq_mul_one_div`), and the normalisation is
  the same function of equal rows.
-/
import proofs.«107144_j5583457485518_1_alg».proof.Proof.Glue
import proofs.«107144_j5583457485518_1_alg».proof.Proof.BridgeMessages
import proofs.«107144_j5583457485518_1_alg».proof.Proof.BridgeCounts
import proofs.«107144_j5583457485518_1_alg».proof.Proof.NodeRegion
import proofs.«107144_j5583457485518_1_alg».proof.Proof.RefNodes

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The node features argument at its literal shape. -/
abbrev featsArg (c : Dev nD) : Vec Ideal S50000x128 .f32 := (m ((c.tc : Thread nD τ).loc main_arg0))

/-- The row the node update normalises, at node `v`, feature `a`: the reference's row. -/
theorem mixed_at (c : Dev nD) (v : Fin 50000) (a : Fin 128) :
    featsArg m c (ix2 v a) + Ideal.div (Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 v a))
        (Cert.ReferenceIdeal.Read.val_main_v29 (F := Ideal) (m ((c.tc : Thread nD τ).loc main_arg1)) (ix1 v))
      = Nodes.feats (V3 m ρ) c (ix2 v a) + Nodes.summed (V3 m ρ) c (ix2 v a) * Nodes.scale (V3 m ρ) c (ix2 v (0 : Fin 1)) := by
  have h1 : Nodes.feats (V3 m ρ) c = featsArg m c := e_arg0' m ρ c
  have h2 : Nodes.summed (V3 m ρ) c = Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := agg_eq m ρ c
  have h3 : Nodes.scale (V3 m ρ) c (ix2 v (0 : Fin 1)) = Ideal.div 1 (Cert.ReferenceIdeal.Read.val_main_v29 (F := Ideal) (m ((c.tc : Thread nD τ).loc main_arg1)) (ix1 v)) := scale_at m ρ c v
  rw [h1, h2, h3, Spec.div_eq_mul_one_div _ _ (count_ne _ v)]

/-- The reference's result is what the kernel's program leaves in its result array. -/
theorem result_eq (c : Dev nD) :
    Cert.ReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      = W4 m ρ c (Proc.devRef .tc main_v30) := by
  refine Eq.trans ?_ ((W4_arr m ρ c 5).trans (Nodes.arr1 (V3 m ρ) c)).symm
  funext i
  obtain ⟨v, j, rfl⟩ : ∃ (v : Fin 50000) (j : Fin 128), i = ix2 v j := ⟨i 0, i 1, eq_ix2 i⟩
  rw [Cert.ReferenceIdeal.Nodes.ref_node]
  unfold Nodes.updated
  refine lnAt_congr (fun a => ?_) (fun a => ?_) (fun a => ?_) j
  · exact mixed_at m ρ c v a
  · show _ = (V3 m ρ c main_v28 : Vec Ideal S1x128 .f32) (ix2 (0 : Fin 1) a)
    rw [e_v28]; exact (row_at _ a).symm
  · show _ = (V3 m ρ c main_v29 : Vec Ideal S1x128 .f32) (ix2 (0 : Fin 1) a)
    rw [e_v29]; exact (row_at _ a).symm

end Cert.Bridge

end
-- ==== Proof.lean ====
/-
  One message-passing layer of a graph network, as two Pallas kernels among host operations, against its plain
  reference: equal results over the extended reals.

  Both programs gather each edge's source-node features, turn them and the edge's own features into a message with a
  two-layer perceptron, add every message into its destination node, count the messages per node, and layer-normalise
  each node's features plus its summed messages over one plus its count.

  They differ in two places. The reference joins node and edge features into 144 columns and contracts once with the
  144-row weight matrix; the kernel's program contracts the 128 node columns and the 16 edge columns separately and adds:
  a finite sum split in two. The reference divides the summed messages by one plus the count; the kernel's program
  multiplies by the quotient of one by it: the same number, since one plus a count is at least one. Neither step uses
  that the inputs are finite: sums may be regrouped freely on the extended reals, and the divisor is a finite count.

  The frames of the two kernel programs are the generated ones; the reference's frame is its generated run with the
  result dropped; nothing was rewritten when the kernel's program was idealized. For the value claim, the kernel
  program's run is taken once more with its result array named (the contents at the last segment boundary), which is
  the second region's output array, one whole-array function of what that region finds (Proof/NodeRegion.lean), whose
  summed-messages input is the scatter-add of the first region's output array (Proof/MessageRegion.lean); the reference's
  run is read index by index (Proof/RefMessages.lean, Proof/RefNodes.lean); Proof/Bridge.lean joins the two.
-/
import proofs.«107144_j5583457485518_1_alg».proof.Defs
import proofs.«107144_j5583457485518_1_alg».proof.Proof.Gen.Kernel
import proofs.«107144_j5583457485518_1_alg».proof.Proof.Gen.Kernel.Skeleton
import proofs.«107144_j5583457485518_1_alg».proof.Proof.Gen.Kernel.Launch
import proofs.«107144_j5583457485518_1_alg».proof.Proof.Gen.Kernel.Points
import proofs.«107144_j5583457485518_1_alg».proof.Proof.Gen.Kernel.Frame
import proofs.«107144_j5583457485518_1_alg».proof.Proof.Gen.KernelIdeal
import proofs.«107144_j5583457485518_1_alg».proof.Proof.Gen.KernelIdeal.Skeleton
import proofs.«107144_j5583457485518_1_alg».proof.Proof.Gen.KernelIdeal.Launch
import proofs.«107144_j5583457485518_1_alg».proof.Proof.Gen.KernelIdeal.Points
import proofs.«107144_j5583457485518_1_alg».proof.Proof.Gen.KernelIdeal.Frame
import proofs.«107144_j5583457485518_1_alg».proof.Proof.Gen.ReferenceIdeal
import proofs.«107144_j5583457485518_1_alg».proof.Proof.Gen.Pre_finite_inputs
import proofs.«107144_j5583457485518_1_alg».proof.Proof.Gen.ReferenceIdeal.Run
import proofs.«107144_j5583457485518_1_alg».proof.Proof.Gen.ReferenceIdeal.Read
import proofs.«107144_j5583457485518_1_alg».proof.Proof.KernelRun
import proofs.«107144_j5583457485518_1_alg».proof.Proof.Bridge
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs run, from memories that agree on the arguments, to equal results: the kernel program's
    result array after its run, which the reference's result term equals once the arguments are identified. -/
theorem algebraic : Cert.algebraic_KernelIdeal_ReferenceIdeal := by
  intro m ρ m' ρ' _ hagree
  refine ⟨fun c => Cert.KernelIdeal.Gen.W4 m ρ c (Proc.devRef .tc Cert.KernelIdeal.main_v30),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact Cert.Bridge.result_eq m ρ c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
